-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x256 : Shape := ⟨2, ![128, 256]⟩
abbrev S128 : Shape := ⟨1, ![128]⟩
abbrev S500000 : Shape := ⟨1, ![500000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : FVec F S128x256 .f32) (main_arg2 : FVec F S128 .f32) (main_arg3 : IVec S500000 32) (main_arg4 : IVec S500000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S128x256 : Shape := ⟨2, ![128, 256]⟩
abbrev S128 : Shape := ⟨1, ![128]⟩
abbrev S500000 : Shape := ⟨1, ![500000]⟩
abbrev S_ : Shape := ⟨0, ![]⟩
abbrev S100000 : Shape := ⟨1, ![100000]⟩
abbrev S500000x1 : Shape := ⟨2, ![500000, 1]⟩
abbrev S500000x128 : Shape := ⟨2, ![500000, 128]⟩
abbrev S256x128 : Shape := ⟨2, ![256, 128]⟩
abbrev S128x128 : Shape := ⟨2, ![128, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 66
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S128x256, .f32⟩
  | .hbm, ⟨2, _⟩ => ⟨S128, .f32⟩
  | .hbm, ⟨3, _⟩ => ⟨S500000, .i32⟩
  | .hbm, ⟨4, _⟩ => ⟨S500000, .i32⟩
  | .hbm, ⟨5, _⟩ => ⟨S_, .f32⟩
  | .hbm, ⟨6, _⟩ => ⟨S500000, .f32⟩
  | .hbm, ⟨7, _⟩ => ⟨S_, .f32⟩
  | .hbm, ⟨8, _⟩ => ⟨S100000, .f32⟩
  | .hbm, ⟨9, _⟩ => ⟨S500000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000, .f32⟩
  | .hbm, ⟨26, _⟩ => ⟨S_, .i32⟩
  | .hbm, ⟨27, _⟩ => ⟨S500000, .i32⟩
  | .hbm, ⟨28, _⟩ => ⟨S500000, .i1⟩
  | .hbm, ⟨29, _⟩ => ⟨S_, .i32⟩
  | .hbm, ⟨30, _⟩ => ⟨S500000, .i32⟩
  | .hbm, ⟨31, _⟩ => ⟨S500000, .i32⟩
  | .hbm, ⟨32, _⟩ => ⟨S500000, .i32⟩
  | .hbm, ⟨33, _⟩ => ⟨S500000x1, .i32⟩
  | .hbm, ⟨34, _⟩ => ⟨S500000, .f32⟩
  | .hbm, ⟨35, _⟩ => ⟨S500000, .f32⟩
  | .hbm, ⟨36, _⟩ => ⟨S500000x1, .f32⟩
  | .hbm, ⟨37, _⟩ => ⟨S_, .i32⟩
  | .hbm, ⟨38, _⟩ => ⟨S500000, .i32⟩
  | .hbm, ⟨39, _⟩ => ⟨S500000, .i1⟩
  | .hbm, ⟨40, _⟩ => ⟨S_, .i32⟩
  | .hbm, ⟨41, _⟩ => ⟨S500000, .i32⟩
  | .hbm, ⟨42, _⟩ => ⟨S500000, .i32⟩
  | .hbm, ⟨43, _⟩ => ⟨S500000, .i32⟩
  | .hbm, ⟨44, _⟩ => ⟨S500000x1, .i32⟩
  | .hbm, ⟨45, _⟩ => ⟨S500000x128, .f32⟩
  | .hbm, ⟨46, _⟩ => ⟨S_, .i32⟩
  | .hbm, ⟨47, _⟩ => ⟨S500000, .i32⟩
  | .hbm, ⟨48, _⟩ => ⟨S500000, .i1⟩
  | .hbm, ⟨49, _⟩ => ⟨S_, .i32⟩
  | .hbm, ⟨50, _⟩ => ⟨S500000, .i32⟩
  | .hbm, ⟨51, _⟩ => ⟨S500000, .i32⟩
  | .hbm, ⟨52, _⟩ => ⟨S500000, .i32⟩
  | .hbm, ⟨53, _⟩ => ⟨S500000x1, .i32⟩
  | .hbm, ⟨54, _⟩ => ⟨S500000x128, .f32⟩
  | .hbm, ⟨55, _⟩ => ⟨S256x128, .f32⟩
  | .hbm, ⟨56, _⟩ => ⟨S128x128, .f32⟩
  | .hbm, ⟨57, _⟩ => ⟨S128x128, .bf16⟩
  | .hbm, ⟨58, _⟩ => ⟨S128x128, .f32⟩
  | .hbm, ⟨59, _⟩ => ⟨S128x128, .bf16⟩
  | .hbm, ⟨60, _⟩ => ⟨S1x128, .f32⟩
  | .hbm, ⟨61, _⟩ => ⟨S500000x128, .f32⟩
  | .hbm, ⟨62, _⟩ => ⟨S_, .f32⟩
  | .hbm, ⟨63, _⟩ => ⟨S100000x128, .f32⟩
  | .hbm, ⟨64, _⟩ => ⟨S500000x1, .i32⟩
  | .hbm, ⟨65, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_c_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_c_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_c_9 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  shapeCasts_S500000_S500000x1 : S500000.ShapeCasts S500000x1
  transposes_S128x256_S256x128_1_0 : S128x256.Transposes [1, 0] S256x128
  slices_S256x128_S128x128_0_0 : S256x128.Slices ![0, 0] S128x128
  bitsLt_bf16_f32 : FTy.bits .bf16 < FTy.bits .f32
  slices_S256x128_S128x128_128_0 : S256x128.Slices ![128, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  gather_S100000x128_S500000x1_S500000x128_1_0_n_n_0_1_1128_wf : GatherDims.WF S100000x128 S500000x1 S500000x128 [1] [0] [] [0] [] 1 ![1, 128]
  dot_S5000x128_S128x128_S5000x128_1_0_0_1_n_n_wf : DotDims.WF S5000x128 S128x128 S5000x128 [1] [0] [0] [1] [] []
  scatter_S100000x128_S500000x1_S500000x128_1_0_0_1_wf : ScatterDims.WF S100000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S500000x1.size a
  hwx0_2 : ∀ i : grid0.Coords, EltTy.bits .f32 = 32 ∨ (Rect.block (s := S500000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S500000x128.size a
  hwx0_6 : ∀ i : grid0.Coords, EltTy.bits .f32 = 32 ∨ (Rect.block (s := S500000x128) S5000x128.size (cc0_transform_6 i) (hinb0_6 i)).WholeWords (EltTy.packing .f32)

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

abbrev win0_0 : Pipeline.Window sig grid0 :=
  Pipeline.Window.ofSpec (Memref.whole main_v30) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x256 : Shape := ⟨2, ![128, 256]⟩
abbrev S128 : Shape := ⟨1, ![128]⟩
abbrev S500000 : Shape := ⟨1, ![500000]⟩
abbrev S_ : Shape := ⟨0, ![]⟩
abbrev S100000 : Shape := ⟨1, ![100000]⟩
abbrev S500000x1 : Shape := ⟨2, ![500000, 1]⟩
abbrev S500000x128 : Shape := ⟨2, ![500000, 128]⟩
abbrev S500000x256 : Shape := ⟨2, ![500000, 256]⟩
abbrev S256x128 : Shape := ⟨2, ![256, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x256, .f32⟩
  | .hbm, ⟨2, _⟩ => ⟨S128, .f32⟩
  | .hbm, ⟨3, _⟩ => ⟨S500000, .i32⟩
  | .hbm, ⟨4, _⟩ => ⟨S500000, .i32⟩
  | .hbm, ⟨5, _⟩ => ⟨S_, .f32⟩
  | .hbm, ⟨6, _⟩ => ⟨S500000, .f32⟩
  | .hbm, ⟨7, _⟩ => ⟨S_, .f32⟩
  | .hbm, ⟨8, _⟩ => ⟨S100000, .f32⟩
  | .hbm, ⟨9, _⟩ => ⟨S500000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x128, .f32⟩
  | .hbm, ⟨26, _⟩ => ⟨S_, .i32⟩
  | .hbm, ⟨27, _⟩ => ⟨S500000, .i32⟩
  | .hbm, ⟨28, _⟩ => ⟨S500000, .i1⟩
  | .hbm, ⟨29, _⟩ => ⟨S_, .i32⟩
  | .hbm, ⟨30, _⟩ => ⟨S500000, .i32⟩
  | .hbm, ⟨31, _⟩ => ⟨S500000, .i32⟩
  | .hbm, ⟨32, _⟩ => ⟨S500000, .i32⟩
  | .hbm, ⟨33, _⟩ => ⟨S500000x1, .i32⟩
  | .hbm, ⟨34, _⟩ => ⟨S500000x128, .f32⟩
  | .hbm, ⟨35, _⟩ => ⟨S500000x256, .f32⟩
  | .hbm, ⟨36, _⟩ => ⟨S256x128, .f32⟩
  | .hbm, ⟨37, _⟩ => ⟨S500000x128, .f32⟩
  | .hbm, ⟨38, _⟩ => ⟨S1x128, .f32⟩
  | .hbm, ⟨39, _⟩ => ⟨S500000x128, .f32⟩
  | .hbm, ⟨40, _⟩ => ⟨S500000x128, .f32⟩
  | .hbm, ⟨41, _⟩ => ⟨S_, .i32⟩
  | .hbm, ⟨42, _⟩ => ⟨S500000, .i32⟩
  | .hbm, ⟨43, _⟩ => ⟨S500000, .i1⟩
  | .hbm, ⟨44, _⟩ => ⟨S_, .i32⟩
  | .hbm, ⟨45, _⟩ => ⟨S500000, .i32⟩
  | .hbm, ⟨46, _⟩ => ⟨S500000, .i32⟩
  | .hbm, ⟨47, _⟩ => ⟨S500000, .i32⟩
  | .hbm, ⟨48, _⟩ => ⟨S500000x1, .i32⟩
  | .hbm, ⟨49, _⟩ => ⟨S500000, .f32⟩
  | .hbm, ⟨50, _⟩ => ⟨S_, .i32⟩
  | .hbm, ⟨51, _⟩ => ⟨S500000, .i32⟩
  | .hbm, ⟨52, _⟩ => ⟨S500000, .i1⟩
  | .hbm, ⟨53, _⟩ => ⟨S_, .i32⟩
  | .hbm, ⟨54, _⟩ => ⟨S500000, .i32⟩
  | .hbm, ⟨55, _⟩ => ⟨S500000, .i32⟩
  | .hbm, ⟨56, _⟩ => ⟨S500000, .i32⟩
  | .hbm, ⟨57, _⟩ => ⟨S500000x1, .i32⟩
  | .hbm, ⟨58, _⟩ => ⟨S500000, .f32⟩
  | .hbm, ⟨59, _⟩ => ⟨S500000, .f32⟩
  | .hbm, ⟨60, _⟩ => ⟨S500000x1, .f32⟩
  | .hbm, ⟨61, _⟩ => ⟨S500000x128, .f32⟩
  | .hbm, ⟨62, _⟩ => ⟨S500000x128, .f32⟩
  | .hbm, ⟨63, _⟩ => ⟨S_, .f32⟩
  | .hbm, ⟨64, _⟩ => ⟨S100000x128, .f32⟩
  | .hbm, ⟨65, _⟩ => ⟨S500000x1, .i32⟩
  | .hbm, ⟨66, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_c_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_8 : Ref sig .tc := ⟨.hbm, 50, rfl⟩
abbrev main_v35 : Ref sig .tc := ⟨.hbm, 51, rfl⟩
abbrev main_v36 : Ref sig .tc := ⟨.hbm, 52, rfl⟩
abbrev main_c_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  transposes_S128x256_S256x128_1_0 : S128x256.Transposes [1, 0] S256x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  scatter_S100000_S500000x1_S500000_n_0_0_1_wf : ScatterDims.WF S100000 S500000x1 S500000 [] [0] [0] 1
  gather_S100000x128_S500000x1_S500000x128_1_0_n_n_0_1_1128_wf : GatherDims.WF S100000x128 S500000x1 S500000x128 [1] [0] [] [0] [] 1 ![1, 128]
  dot_S500000x256_S256x128_S500000x128_1_0_0_1_n_n_wf : DotDims.WF S500000x256 S256x128 S500000x128 [1] [0] [0] [1] [] []
  gather_S100000_S500000x1_S500000_n_0_n_n_0_1_1_wf : GatherDims.WF S100000 S500000x1 S500000 [] [0] [] [0] [] 1 ![1]
  scatter_S100000x128_S500000x1_S500000x128_1_0_0_1_wf : ScatterDims.WF S100000x128 S500000x1 S500000x128 [1] [0] [0] 1

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

class Facts : Prop extends Facts₀ where

variable [Facts]
-- ==== Proof.MsgSpec.lean ====
/-
  The per-edge message both programs compute, as one function of its ingredients, and the one law that joins
  their two spellings.

  For edge `e` and output feature `j` the message is
      ( ∑ₖ hd[e,k] · W[j,k]  +  ∑ₖ hs[e,k] · W[j,128+k]  +  b[j] ) · nn[e]
  where `hd`, `hs` are the destination's and the source's gathered feature rows, `W` the 128×256 weight matrix,
  `b` the bias and `nn` the product of the two endpoint norms. One program contracts the 256 columns of `W` in one
  sum over the concatenated row `[hd[e] ‖ hs[e]]`; the other contracts each half by itself and adds. The two agree
  because a sum over `Fin 256` is the sum over its lower half plus the sum over its upper half — a fact of any
  commutative additive monoid, so it holds on the extended reals with no finiteness assumption.
-/
import Idealize.ShloMosaic.Lib.ValueIdx
import Idealize.ShloMosaic.PureOps.Ideal
import Mathlib.Algebra.BigOperators.Fin

noncomputable section

namespace Cert.MsgSpec

open Idealize.ShloMosaic Idealize.ShloMosaic.ValueIdx

/-- Column `k` of the lower half of a 256-wide row. -/
def lo (k : Fin 128) : Fin 256 := ⟨k.val, by omega⟩
/-- Column `k` of the upper half of a 256-wide row. -/
def hi (k : Fin 128) : Fin 256 := ⟨128 + k.val, by omega⟩

@[simp] theorem lo_val (k : Fin 128) : (lo k).val = k.val := rfl
@[simp] theorem hi_val (k : Fin 128) : (hi k).val = 128 + k.val := rfl

/-- A sum over 256 columns is the sum over the lower 128 plus the sum over the upper 128. -/
theorem sum_halves (f : Fin 256 → EReal) :
    ∑ k : Fin 256, f k = (∑ k : Fin 128, f (lo k)) + ∑ k : Fin 128, f (hi k) :=
  Fin.sum_univ_add (a := 128) (b := 128) f

/-- The message of edge `e` at feature `j`. -/
def msgAt (hd hs : (⟨2, ![500000, 128]⟩ : Shape).Idx → EReal) (W : (⟨2, ![128, 256]⟩ : Shape).Idx → EReal)
    (b : (⟨1, ![128]⟩ : Shape).Idx → EReal) (nn : (⟨1, ![500000]⟩ : Shape).Idx → EReal)
    (e : Fin 500000) (j : Fin 128) : EReal :=
  ((∑ k : Fin 128, hd (ix2 e k) * W (ix2 j (lo k))) + (∑ k : Fin 128, hs (ix2 e k) * W (ix2 j (hi k))) + b (ix1 j))
    * nn (ix1 e)

/-- All messages, as an array over (edge, feature). -/
def msg (hd hs : (⟨2, ![500000, 128]⟩ : Shape).Idx → EReal) (W : (⟨2, ![128, 256]⟩ : Shape).Idx → EReal)
    (b : (⟨1, ![128]⟩ : Shape).Idx → EReal) (nn : (⟨1, ![500000]⟩ : Shape).Idx → EReal) :
    (⟨2, ![500000, 128]⟩ : Shape).Idx → EReal :=
  fun i => msgAt hd hs W b nn (i 0) (i 1)

theorem msg_ix2 (hd hs : (⟨2, ![500000, 128]⟩ : Shape).Idx → EReal) (W : (⟨2, ![128, 256]⟩ : Shape).Idx → EReal)
    (b : (⟨1, ![128]⟩ : Shape).Idx → EReal) (nn : (⟨1, ![500000]⟩ : Shape).Idx → EReal) (e : Fin 500000) (j : Fin 128) :
    msg hd hs W b nn (ix2 e j) = msgAt hd hs W b nn e j := rfl

end Cert.MsgSpec

end
-- ==== Proof.RefMsg.lean ====
/-
  The reference's per-edge message, read index by index at the ideal instance.

  The reference multiplies the norm product of edge `e` by ( [hd[e] ‖ hs[e]] · Wᵀ + b ) at feature `j`: one contraction
  over the 256 columns of the concatenated row. Split at column 128 (`MsgSpec.sum_halves`), the lower half reads the
  destination's gathered row and the upper half the source's, and transposing `W` swaps its two coordinates; what
  is left differs from `MsgSpec.msgAt` by the order of one product.
-/
import proofs.«169036_j2645699854683_1_alg».proof.Proof.Gen.ReferenceIdeal.Run
import proofs.«169036_j2645699854683_1_alg».proof.Proof.Gen.ReferenceIdeal.Read
import proofs.«169036_j2645699854683_1_alg».proof.Proof.MsgSpec
import Idealize.ShloMosaic.Lib.ValueIdx
import Idealize.ShloMosaic.Lib.Pipeline.Value
import Idealize.ShloMosaic.PureOps.Ideal.Laws

noncomputable section

namespace Cert.ReferenceIdeal.RefMsg

open Cert.ReferenceIdeal Cert.ReferenceIdeal.Gen Cert.ReferenceIdeal.Read Idealize.ShloMosaic Idealize.ShloMosaic.ValueIdx
open Cert.MsgSpec

/-- The concatenated row at a lower-half column is the destination's gathered row there. -/
theorem cat_lo (x0 : (⟨S100000x128, .f32⟩ : BufTy).Contents (Elt Ideal)) (x3 x4 : (⟨S500000, .i32⟩ : BufTy).Contents (Elt Ideal))
    (e : Fin 500000) (j : Fin 128) (k : Fin 128) :
    val_main_v22 (F := Ideal) x0 x3 x4 (lidx_main_v24 (ix2 e j) (lo k)) = val_main_v14 (F := Ideal) x0 x4 (ix2 e k) := by
  unfold val_main_v22
  exact concatenate_pair_apply_left (t := S500000x256) (s₁ := S500000x128) (s₂ := S500000x128) (1 : Fin 2) _ _
    concatenates_S500000x128_S500000x128_S500000x256_d1 (lidx_main_v24 (ix2 e j) (lo k)) rfl (ix2 e k)
    (fun b => match b with
      | ⟨0, _⟩ => rfl
      | ⟨1, _⟩ => rfl)

/-- The concatenated row at an upper-half column is the source's gathered row there. -/
theorem cat_hi (x0 : (⟨S100000x128, .f32⟩ : BufTy).Contents (Elt Ideal)) (x3 x4 : (⟨S500000, .i32⟩ : BufTy).Contents (Elt Ideal))
    (e : Fin 500000) (j : Fin 128) (k : Fin 128) :
    val_main_v22 (F := Ideal) x0 x3 x4 (lidx_main_v24 (ix2 e j) (hi k)) = val_main_v21 (F := Ideal) x0 x3 (ix2 e k) := by
  unfold val_main_v22
  exact concatenate_pair_apply_right (t := S500000x256) (s₁ := S500000x128) (s₂ := S500000x128) (1 : Fin 2) _ _
    concatenates_S500000x128_S500000x128_S500000x256_d1 (lidx_main_v24 (ix2 e j) (hi k)) rfl rfl (ix2 e k)
    (fun b hb => match b, hb with
      | ⟨0, _⟩, _ => rfl
      | ⟨1, _⟩, hb => absurd rfl hb)
    (by show k.val + 128 = 128 + k.val; omega)

/-- The transposed weights at (column `k`, feature `j`) are `W[j, k]`. -/
theorem wt_at (x1 : (⟨S128x256, .f32⟩ : BufTy).Contents (Elt Ideal)) (e : Fin 500000) (j : Fin 128) (k : Fin 256) :
    val_main_v23 (F := Ideal) x1 (ridx_main_v24 (ix2 e j) k) = x1 (ix2 j k) := by
  rw [val_main_v23_apply]
  exact congrArg x1 (funext fun a => match a with
    | ⟨0, _⟩ => rfl
    | ⟨1, _⟩ => rfl)

/-- The reference's message at (edge `e`, feature `j`). -/
theorem ref_msg_apply (x0 : (⟨S100000x128, .f32⟩ : BufTy).Contents (Elt Ideal)) (x1 : (⟨S128x256, .f32⟩ : BufTy).Contents (Elt Ideal))
    (x2 : (⟨S128, .f32⟩ : BufTy).Contents (Elt Ideal)) (x3 x4 : (⟨S500000, .i32⟩ : BufTy).Contents (Elt Ideal))
    (e : Fin 500000) (j : Fin 128) :
    val_main_v45 (F := Ideal) x0 x1 x2 x3 x4 (ix2 e j)
      = msgAt (val_main_v14 (F := Ideal) x0 x4) (val_main_v21 (F := Ideal) x0 x3) x1 x2 (val_main_v42 (F := Ideal) x3 x4) e j := by
  rw [val_main_v45_apply, val_main_v44_apply, val_main_v43_apply, val_main_v27_apply, val_main_v24_apply, val_main_v26_apply,
    val_main_v25_apply, sum_halves]
  simp only [cat_lo, cat_hi, wt_at]
  unfold msgAt
  have hn : idx_main_v43 (idx_main_v44 (ix2 e j)) = ix1 e := funext fun a => match a with | ⟨0, _⟩ => rfl
  have hb : idx_main_v25 (idx_main_v26 (ix2 e j)) = ix1 j := funext fun a => match a with | ⟨0, _⟩ => rfl
  rw [hn, hb]
  exact mul_comm _ _

/-- The reference's messages as an array. -/
theorem ref_msg (x0 : (⟨S100000x128, .f32⟩ : BufTy).Contents (Elt Ideal)) (x1 : (⟨S128x256, .f32⟩ : BufTy).Contents (Elt Ideal))
    (x2 : (⟨S128, .f32⟩ : BufTy).Contents (Elt Ideal)) (x3 x4 : (⟨S500000, .i32⟩ : BufTy).Contents (Elt Ideal)) :
    val_main_v45 (F := Ideal) x0 x1 x2 x3 x4
      = msg (val_main_v14 (F := Ideal) x0 x4) (val_main_v21 (F := Ideal) x0 x3) x1 x2 (val_main_v42 (F := Ideal) x3 x4) := by
  funext i
  obtain ⟨e, j, rfl⟩ : ∃ (e : Fin 500000) (j : Fin 128), i = ix2 e j := ⟨i 0, i 1, eq_ix2 i⟩
  exact ref_msg_apply x0 x1 x2 x3 x4 e j

end Cert.ReferenceIdeal.RefMsg

end
-- ==== Proof.KernelHost.lean ====
/-
  What the host lines before the kernel region leave in the arrays the region's windows stage, as functions of the
  program's arguments.

  The gathered destination rows, the gathered source rows and the per-edge norm product are computed by the very
  operations the reference uses, so they are the reference's own stages of the launched arguments. The two weight
  windows are the lower and the upper 128 rows of `Wᵀ` (narrowed to bf16: the identity on ideal values), so their
  entry at (column `k`, feature `q`) is `W[q, k]` resp. `W[q, 128 + k]`; the bias window is `b` as one row; the scale
  window is the norm product as one column.
-/
import proofs.«169036_j2645699854683_1_alg».proof.Proof.Gen.KernelIdeal.Frame
import proofs.«169036_j2645699854683_1_alg».proof.Proof.Gen.ReferenceIdeal.Read
import proofs.«169036_j2645699854683_1_alg».proof.Proof.MsgSpec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KernelHost

open Cert.KernelIdeal Cert.KernelIdeal.Gen Idealize.ShloMosaic Idealize.ShloMosaic.TcCoe Idealize.SL.Sem
open Idealize.ShloMosaic.StableHlo Idealize.ShloMosaic.ValueIdx Cert.MsgSpec

variable (m : (ℓ : Loc nD τ sig) → Buf (Elt Ideal) ℓ)

/-- The node features as launched. -/
abbrev argX (c : Dev nD) : (⟨S100000x128, .f32⟩ : BufTy).Contents (Elt Ideal) := m ((c : Thread nD τ).loc main_arg0)
/-- The weight matrix as launched. -/
abbrev argW (c : Dev nD) : FVec Ideal S128x256 .f32 := m ((c : Thread nD τ).loc main_arg1)
/-- The bias as launched. -/
abbrev argB (c : Dev nD) : FVec Ideal S128 .f32 := m ((c : Thread nD τ).loc main_arg2)
/-- The edges' source nodes as launched. -/
abbrev argSrc (c : Dev nD) : (⟨S500000, .i32⟩ : BufTy).Contents (Elt Ideal) := m ((c : Thread nD τ).loc main_arg3)
/-- The edges' destination nodes as launched. -/
abbrev argDst (c : Dev nD) : (⟨S500000, .i32⟩ : BufTy).Contents (Elt Ideal) := m ((c : Thread nD τ).loc main_arg4)

/-! ## The arrays as terms -/

set_option maxHeartbeats 4000000 in
/-- The destination rows the region stages are the reference's gathered destination rows. -/
theorem V_hdst (c : Dev nD) : (V m c main_v30 : (⟨S500000x128, .f32⟩ : BufTy).Contents (Elt Ideal))
    = Cert.ReferenceIdeal.Read.val_main_v14 (F := Ideal) (argX m c) (argDst m c) := by
  show StableHlo.after hostOps0 (fun b => m (c, b)) (Proc.devRef .tc main_v30) = _
  after_results
  simp only [Cert.ReferenceIdeal.Read.val_main_v14, Cert.ReferenceIdeal.Read.val_main_v13, Cert.ReferenceIdeal.Read.val_main_v12, Cert.ReferenceIdeal.Read.val_main_v9, Cert.ReferenceIdeal.Read.val_main_v11, Cert.ReferenceIdeal.Read.val_main_v8, Cert.ReferenceIdeal.Read.val_main_v10, Cert.ReferenceIdeal.Read.val_main_c, Cert.ReferenceIdeal.Read.val_main_c_3]
  rfl

set_option maxHeartbeats 4000000 in
/-- The source rows the region stages are the reference's gathered source rows. -/
theorem V_hsrc (c : Dev nD) : (V m c main_v37 : (⟨S500000x128, .f32⟩ : BufTy).Contents (Elt Ideal))
    = Cert.ReferenceIdeal.Read.val_main_v21 (F := Ideal) (argX m c) (argSrc m c) := by
  show StableHlo.after hostOps0 (fun b => m (c, b)) (Proc.devRef .tc main_v37) = _
  after_results
  simp only [Cert.ReferenceIdeal.Read.val_main_v21, Cert.ReferenceIdeal.Read.val_main_v20, Cert.ReferenceIdeal.Read.val_main_v19, Cert.ReferenceIdeal.Read.val_main_v16, Cert.ReferenceIdeal.Read.val_main_v18, Cert.ReferenceIdeal.Read.val_main_v15, Cert.ReferenceIdeal.Read.val_main_v17, Cert.ReferenceIdeal.Read.val_main_c_4, Cert.ReferenceIdeal.Read.val_main_c_5]
  rfl

set_option maxHeartbeats 8000000 in
/-- The scale column the region stages is the reference's norm product, as one column. -/
theorem V_scale (c : Dev nD) : (V m c main_v23 : (⟨S500000x1, .f32⟩ : BufTy).Contents (Elt Ideal))
    = shapeCast S500000x1 (Cert.ReferenceIdeal.Read.val_main_v42 (F := Ideal) (argSrc m c) (argDst m c)) shapeCasts_S500000_S500000x1 := by
  show StableHlo.after hostOps0 (fun b => m (c, b)) (Proc.devRef .tc main_v23) = _
  after_results
  simp only [Cert.ReferenceIdeal.Read.val_main_v42, Cert.ReferenceIdeal.Read.val_main_v34, Cert.ReferenceIdeal.Read.val_main_v41, Cert.ReferenceIdeal.Read.val_main_v7, Cert.ReferenceIdeal.Read.val_main_v33, Cert.ReferenceIdeal.Read.val_main_v40, Cert.ReferenceIdeal.Read.val_main_v5, Cert.ReferenceIdeal.Read.val_main_v6, Cert.ReferenceIdeal.Read.val_main_cst_2, Cert.ReferenceIdeal.Read.val_main_v3, Cert.ReferenceIdeal.Read.val_main_v4, Cert.ReferenceIdeal.Read.val_main_cst_1, Cert.ReferenceIdeal.Read.val_main_v1, Cert.ReferenceIdeal.Read.val_main_v2, Cert.ReferenceIdeal.Read.val_main_v0, Cert.ReferenceIdeal.Read.val_main_cst, Cert.ReferenceIdeal.Read.val_main_cst_0, Cert.ReferenceIdeal.Read.val_main_v32, Cert.ReferenceIdeal.Read.val_main_v29, Cert.ReferenceIdeal.Read.val_main_v31, Cert.ReferenceIdeal.Read.val_main_v28, Cert.ReferenceIdeal.Read.val_main_v30, Cert.ReferenceIdeal.Read.val_main_c_6, Cert.ReferenceIdeal.Read.val_main_c_7, Cert.ReferenceIdeal.Read.val_main_v39, Cert.ReferenceIdeal.Read.val_main_v36, Cert.ReferenceIdeal.Read.val_main_v38, Cert.ReferenceIdeal.Read.val_main_v35, Cert.ReferenceIdeal.Read.val_main_v37, Cert.ReferenceIdeal.Read.val_main_c_8, Cert.ReferenceIdeal.Read.val_main_c_9]
  rfl

theorem V_wdst (c : Dev nD) : (V m c main_v40 : FVec Ideal S128x128 .bf16)
    = truncf .bf16 (extractStridedSlice S128x128 ![0, 0] (transpose S256x128 [1, 0] (argW m c) transposes_S128x256_S256x128_1_0) slices_S256x128_S128x128_0_0) bitsLt_bf16_f32 := by
  show StableHlo.after hostOps0 (fun b => m (c, b)) (Proc.devRef .tc main_v40) = _
  after_results <;> rfl

theorem V_wsrc (c : Dev nD) : (V m c main_v42 : FVec Ideal S128x128 .bf16)
    = truncf .bf16 (extractStridedSlice S128x128 ![128, 0] (transpose S256x128 [1, 0] (argW m c) transposes_S128x256_S256x128_1_0) slices_S256x128_S128x128_128_0) bitsLt_bf16_f32 := by
  show StableHlo.after hostOps0 (fun b => m (c, b)) (Proc.devRef .tc main_v42) = _
  after_results <;> rfl

theorem V_bias (c : Dev nD) : (V m c main_v43 : FVec Ideal S1x128 .f32)
    = shapeCast S1x128 (argB m c) shapeCasts_S128_S1x128 := by
  show StableHlo.after hostOps0 (fun b => m (c, b)) (Proc.devRef .tc main_v43) = _
  after_results <;> rfl

end Cert.KernelIdeal.KernelHost

end
-- ==== Proof.KernelReads.lean ====
/-
  The arrays the region's windows stage, read at an index.
-/
import proofs.«169036_j2645699854683_1_alg».proof.Proof.KernelHost

noncomputable section

namespace Cert.KernelIdeal.KernelHost

open Cert.KernelIdeal Cert.KernelIdeal.Gen Idealize.ShloMosaic Idealize.ShloMosaic.TcCoe Idealize.SL.Sem
open Idealize.ShloMosaic.StableHlo Idealize.ShloMosaic.ValueIdx Cert.MsgSpec

variable (m : (ℓ : Loc nD τ sig) → Buf (Elt Ideal) ℓ)

/-- The destination-half weights at (column `k`, feature `q`) are `W[q, k]`. -/
theorem wdst_at (c : Dev nD) (k q : Fin 128) :
    (V m c main_v40 : FVec Ideal S128x128 .bf16) (ix2 k q) = argW m c (ix2 q (lo k)) := by
  rw [V_wdst, truncf_apply, slice2_axis0_apply 0 _ slices_S256x128_S128x128_0_0 k q (lo k) (by show k.val = 0 + k.val; omega)]
  exact transpose_apply [1, 0] (argW m c) transposes_S128x256_S256x128_1_0 (ix2 (lo k) q) (ix2 q (lo k))
    (fun b => match b with
      | ⟨0, _⟩ => rfl
      | ⟨1, _⟩ => rfl)

/-- The source-half weights at (column `k`, feature `q`) are `W[q, 128 + k]`. -/
theorem wsrc_at (c : Dev nD) (k q : Fin 128) :
    (V m c main_v42 : FVec Ideal S128x128 .bf16) (ix2 k q) = argW m c (ix2 q (hi k)) := by
  rw [V_wsrc, truncf_apply, slice2_axis0_apply 128 _ slices_S256x128_S128x128_128_0 k q (hi k) rfl]
  exact transpose_apply [1, 0] (argW m c) transposes_S128x256_S256x128_1_0 (ix2 (hi k) q) (ix2 q (hi k))
    (fun b => match b with
      | ⟨0, _⟩ => rfl
      | ⟨1, _⟩ => rfl)

/-- The bias row at feature `q` is `b[q]`. -/
theorem bias_at (c : Dev nD) (q : Fin 128) :
    (V m c main_v43 : FVec Ideal S1x128 .f32) (ix2 (0 : Fin 1) q) = argB m c (ix1 q) := by
  rw [V_bias]
  exact shapeCast_a_1a_apply (argB m c) shapeCasts_S128_S1x128 (0 : Fin 1) q

/-- The scale column at edge `e` is the norm product of `e`. -/
theorem scale_at (c : Dev nD) (e : Fin 500000) :
    (V m c main_v23 : FVec Ideal S500000x1 .f32) (ix2 e (0 : Fin 1))
      = Cert.ReferenceIdeal.Read.val_main_v42 (F := Ideal) (argSrc m c) (argDst m c) (ix1 e) := by
  rw [V_scale]
  exact shapeCast_apply _ shapeCasts_S500000_S500000x1 (ix2 e (0 : Fin 1)) (ix1 e) (by
    rw [Shape.rowMajor_val_one, Shape.rowMajor_val_two]
    show e.val = e.val * 1 + 0
    omega)

end Cert.KernelIdeal.KernelHost

end
-- ==== Proof.KernelMsg.lean ====
/-
  What the kernel body stores, read index by index at the ideal instance.

  On a block of 5000 edges the body forms  (x0 · w0 + x1 · w1 + bias) ⊙ scale : each block product is, at row `p` and
  feature `q`, the plain sum over the 128 contracted columns of the row's entry times the weight's (the accumulator
  is zero, and narrowing to bf16 is the identity on ideal values); the bias row is repeated down the rows and the
  scale column across the features.
-/
import proofs.«169036_j2645699854683_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.KernelMsg

open Cert.KernelIdeal Cert.KernelIdeal.Gen Idealize.ShloMosaic Idealize.ShloMosaic.ValueIdx

/-! ## The block product's operand indices -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, at row `p` and feature `q`: the sum over the contracted column. -/
theorem mm_apply (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q) = ∑ k : Fin 128, x (ix2 p k) * w (ix2 k q) := by
  show FloatOps.matmul dot_S5000x128_S128x128_S5000x128_1_0_0_1_n_n none x w (constant S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## The bias row and the scale column, spread over the block -/

theorem bias_at (bb : FVec Ideal S1x128 .f32) (p : Fin 5000) (q : Fin 128) :
    broadcastTo S5000x128 bb broadcasts_S1x128_S5000x128 (ix2 p q) = bb (ix2 (0 : Fin 1) q) :=
  broadcastTo_apply bb broadcasts_S1x128_S5000x128 (ix2 p q) (ix2 (0 : Fin 1) q) (fun a => match a with
    | ⟨0, _⟩ => by show (0 : ℕ) = if (1 : ℕ) = 1 then 0 else p.val; rw [if_pos rfl]
    | ⟨1, _⟩ => by show q.val = if (128 : ℕ) = 1 then 0 else q.val; rw [if_neg (by decide)])

theorem scale_at (s : FVec Ideal S5000x1 .f32) (p : Fin 5000) (q : Fin 128) :
    broadcastTo S5000x128 s broadcasts_S5000x1_S5000x128 (ix2 p q) = s (ix2 p (0 : Fin 1)) :=
  broadcastTo_apply s broadcasts_S5000x1_S5000x128 (ix2 p q) (ix2 p (0 : Fin 1)) (fun a => match a with
    | ⟨0, _⟩ => by show p.val = if (5000 : ℕ) = 1 then 0 else p.val; rw [if_neg (by decide)]
    | ⟨1, _⟩ => by show (0 : ℕ) = if (1 : ℕ) = 1 then 0 else q.val; rw [if_pos rfl])

/-! ## The payload -/

/-- What the body stores at row `p`, feature `q` of the output block. -/
theorem pay_apply (x0 x1 : FVec Ideal S5000x128 .f32) (w0 w1 : FVec Ideal S128x128 .bf16) (bb : FVec Ideal S1x128 .f32)
    (s : FVec Ideal S5000x1 .f32) (p : Fin 5000) (q : Fin 128) :
    k0_pay1 (F := Ideal) x0 x1 w0 w1 bb s (ix2 p q)
      = ((∑ k : Fin 128, x0 (ix2 p k) * w0 (ix2 k q)) + (∑ k : Fin 128, x1 (ix2 p k) * w1 (ix2 k q)) + bb (ix2 (0 : Fin 1) q))
          * s (ix2 p (0 : Fin 1)) := by
  unfold k0_pay1
  simp only [shapeCast_self]
  rw [mulf_apply, addf_apply, addf_apply, mm_apply, mm_apply, bias_at, scale_at]
  rfl

end Cert.KernelIdeal.KernelMsg

end
-- ==== Proof.KernelBlocks.lean ====
/-
  From the blocks the kernel region writes back to the whole message array.

  The grid has 100 points; point `t` stages rows `5000 t … 5000 t + 4999` of the gathered destination rows, of the
  gathered source rows and of the scale column, the two whole 128×128 weight halves and the bias row, and writes back
  rows `5000 t … 5000 t + 4999` of the output. What it writes back is the message (`MsgSpec.msg`) of those rows; the
  100 blocks tile the 500000 rows (row `r` is in block `r / 5000`), so after the region the output array is the whole
  message array.
-/
import proofs.«169036_j2645699854683_1_alg».proof.Proof.KernelReads
import proofs.«169036_j2645699854683_1_alg».proof.Proof.KernelMsg

noncomputable section

namespace Cert.KernelIdeal.KernelBlocks

open Cert.KernelIdeal Cert.KernelIdeal.Gen Idealize.ShloMosaic Idealize.ShloMosaic.TcCoe Idealize.SL.Sem
open Idealize.ShloMosaic.ValueIdx Cert.MsgSpec Cert.KernelIdeal.KernelHost Cert.KernelIdeal.KernelMsg

variable (m : (ℓ : Loc nD τ sig) → Buf (Elt Ideal) ℓ)

theorem hz : (![0, 0] : Fin 2 → Nat) = fun _ => 0 := funext fun a => by fin_cases a <;> rfl

/-- The message array the region computes, from the arrays as it finds them. -/
def kmsg (c : Dev nD) : S500000x128.Idx → Ideal .f32 :=
  msg (V m c main_v30) (V m c main_v37) (argW m c) (argB m c)
    (Cert.ReferenceIdeal.Read.val_main_v42 (F := Ideal) (argSrc m c) (argDst m c))

/-- The printed index maps, decided over the grid: the row windows move with the point, the others stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block is edge `5000 t + p`. -/
def row (t : Fin cfg0.N) (p : Fin 5000) : Fin 500000 :=
  ⟨t.val * 5000 + p.val, by have ht := t.isLt; have hN : cfg0.N = 100 := N_0; have hp := p.isLt; omega⟩

@[simp] theorem row_val (t : Fin cfg0.N) (p : Fin 5000) : (row t p).val = t.val * 5000 + p.val := rfl

/-! ## Each window's block, read where the output's block says -/

theorem hdst_blk (c : Dev nD) (t : Fin cfg0.N) (p : Fin 5000) (k : Fin 128) :
    iblk m c 0 t (ix2 p k) = (V m c main_v30 : FVec Ideal S500000x128 .f32) (ix2 (row t p) k) := by
  obtain ⟨e0, e1, -⟩ := idx_facts t
  show V m c main_v30 (((cfg0.win 0).blk t).view.emb (ix2 p k)) = _
  have h : ((cfg0.win 0).blk t).view.emb (ix2 p k) = ix2 (row t p) k := by
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  rw [h]

theorem hsrc_blk (c : Dev nD) (t : Fin cfg0.N) (p : Fin 5000) (k : Fin 128) :
    iblk m c 1 t (ix2 p k) = (V m c main_v37 : FVec Ideal S500000x128 .f32) (ix2 (row t p) k) := by
  obtain ⟨-, -, e0, e1, -⟩ := idx_facts t
  show V m c main_v37 (((cfg0.win 1).blk t).view.emb (ix2 p k)) = _
  have h : ((cfg0.win 1).blk t).view.emb (ix2 p k) = ix2 (row t p) k := by
    funext a; apply Fin.ext
    match a with
    | ⟨0, _⟩ => show win0_1.index t (0 : Fin 2) * 5000 + 1 * p.val = t.val * 5000 + p.val; omega
    | ⟨1, _⟩ => show win0_1.index t (1 : Fin 2) * 128 + 1 * k.val = k.val; omega
  rw [h]

theorem scale_blk (c : Dev nD) (t : Fin cfg0.N) (p : Fin 5000) :
    iblk m c 2 t (ix2 p (0 : Fin 1))
      = Cert.ReferenceIdeal.Read.val_main_v42 (F := Ideal) (argSrc m c) (argDst m c) (ix1 (row t p)) := by
  obtain ⟨-, -, -, -, e0, e1, -⟩ := idx_facts t
  show V m c main_v23 (((cfg0.win 2).blk t).view.emb (ix2 p (0 : Fin 1))) = _
  have h : ((cfg0.win 2).blk t).view.emb (ix2 p (0 : Fin 1)) = ix2 (row t p) (0 : Fin 1) := by
    funext a; apply Fin.ext
    match a with
    | ⟨0, _⟩ => show win0_2.index t (0 : Fin 2) * 5000 + 1 * p.val = t.val * 5000 + p.val; omega
    | ⟨1, _⟩ => show win0_2.index t (1 : Fin 2) * 1 + 1 * 0 = 0; omega
  rw [h]
  exact scale_at m c (row t p)

theorem wdst_blk (c : Dev nD) (t : Fin cfg0.N) (k q : Fin 128) :
    iblk m c 3 t (ix2 k q) = argW m c (ix2 q (lo k)) := by
  obtain ⟨-, -, -, -, -, -, e0, e1, -⟩ := idx_facts t
  show V m c main_v40 (((cfg0.win 3).blk t).view.emb (ix2 k q)) = _
  have h : ((cfg0.win 3).blk t).view.emb (ix2 k q) = ix2 k q := by
    funext a; apply Fin.ext
    match a with
    | ⟨0, _⟩ => show win0_3.index t (0 : Fin 2) * 128 + 1 * k.val = k.val; omega
    | ⟨1, _⟩ => show win0_3.index t (1 : Fin 2) * 128 + 1 * q.val = q.val; omega
  rw [h]
  exact wdst_at m c k q

theorem wsrc_blk (c : Dev nD) (t : Fin cfg0.N) (k q : Fin 128) :
    iblk m c 4 t (ix2 k q) = argW m c (ix2 q (hi k)) := by
  obtain ⟨-, -, -, -, -, -, -, -, e0, e1, -⟩ := idx_facts t
  show V m c main_v42 (((cfg0.win 4).blk t).view.emb (ix2 k q)) = _
  have h : ((cfg0.win 4).blk t).view.emb (ix2 k q) = ix2 k q := by
    funext a; apply Fin.ext
    match a with
    | ⟨0, _⟩ => show win0_4.index t (0 : Fin 2) * 128 + 1 * k.val = k.val; omega
    | ⟨1, _⟩ => show win0_4.index t (1 : Fin 2) * 128 + 1 * q.val = q.val; omega
  rw [h]
  exact wsrc_at m c k q

theorem bias_blk (c : Dev nD) (t : Fin cfg0.N) (q : Fin 128) :
    iblk m c 5 t (ix2 (0 : Fin 1) q) = argB m c (ix1 q) := by
  obtain ⟨-, -, -, -, -, -, -, -, -, -, e0, e1, -⟩ := idx_facts t
  show V m c main_v43 (((cfg0.win 5).blk t).view.emb (ix2 (0 : Fin 1) q)) = _
  have h : ((cfg0.win 5).blk t).view.emb (ix2 (0 : Fin 1) q) = ix2 (0 : Fin 1) q := by
    funext a; apply Fin.ext
    match a with
    | ⟨0, _⟩ => show win0_5.index t (0 : Fin 2) * 1 + 1 * 0 = 0; omega
    | ⟨1, _⟩ => show win0_5.index t (1 : Fin 2) * 128 + 1 * q.val = q.val; omega
  rw [h]
  exact bias_at m c q

/-- Entry (`p`, `q`) of point `t`'s output block is the array's entry (edge `5000 t + p`, feature `q`). -/
theorem out_emb (t : Fin cfg0.N) (p : Fin 5000) (q : Fin 128) :
    ((cfg0.win 6).blk t).view.emb (ix2 p q) = ix2 (row t p) q := by
  obtain ⟨-, -, -, -, -, -, -, -, -, -, -, -, e0, e1⟩ := idx_facts t
  funext a; apply Fin.ext
  match a with
  | ⟨0, _⟩ => show win0_6.index t (0 : Fin 2) * 5000 + 1 * p.val = t.val * 5000 + p.val; omega
  | ⟨1, _⟩ => show win0_6.index t (1 : Fin 2) * 128 + 1 * q.val = q.val; omega

/-! ## What a point writes back -/

/-- Point `t` writes back block `t` of the message array. -/
theorem flushed_eq (c : Dev nD) (t : Fin cfg0.N) :
    (dats m 0 c).flushed 6 t = ((cfg0.win 6).blk t).view.read (Elt Ideal) (kmsg m c) := by
  show (cfg0.win 6).cut (grid0.coords t) ((dats m 0 c).after 6 t) = _
  rw [after0_6]
  unfold out0_6
  rw [View.canon_unit_zero hz]
  simp only [View.ld_unit_zero (S := S5000x128) hz, View.ld_unit_zero (S := S128x128) hz, View.ld_unit_zero (S := S1x128) hz,
    View.ld_unit_zero (S := S5000x1) hz]
  funext j
  obtain ⟨p, q, rfl⟩ : ∃ (p : Fin 5000) (q : Fin 128), j = ix2 p q := ⟨j 0, j 1, eq_ix2 j⟩
  show k0_pay1 (F := Ideal) (iblk m c 0 t) (iblk m c 1 t) (iblk m c 3 t) (iblk m c 4 t) (iblk m c 5 t) (iblk m c 2 t) (ix2 p q)
    = kmsg m c (((cfg0.win 6).blk t).view.emb (ix2 p q))
  rw [out_emb t p q]
  refine (pay_apply (iblk m c 0 t) (iblk m c 1 t) (iblk m c 3 t) (iblk m c 4 t) (iblk m c 5 t) (iblk m c 2 t) p q).trans ?_
  show _ = msgAt (V m c main_v30) (V m c main_v37) (argW m c) (argB m c)
    (Cert.ReferenceIdeal.Read.val_main_v42 (F := Ideal) (argSrc m c) (argDst m c)) (row t p) q
  unfold msgAt
  simp only [hdst_blk m c t, hsrc_blk m c t, wdst_blk m c t, wsrc_blk m c t, bias_blk m c t, scale_blk m c t]

/-! ## The blocks tile the array -/

theorem mem_blk (t : Fin cfg0.N) (i : S500000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v44).slice (win0_6.rect t)).set ↔ _
  rw [View.set_slice_whole, Rect.mem_set_unit]
  exact Iff.rfl

/-- Every (edge, feature) lies in the block of point `edge / 5000`. -/
theorem cover (i : S500000x128.Idx) :
    ∃ t : Fin cfg0.N, (cfg0.win 6).flush t = true ∧ i ∈ ((cfg0.win 6).blk t).view.set := by
  have hi0 : (i 0).val < 500000 := (i 0).isLt
  have hi1 : (i 1).val < 128 := (i 1).isLt
  have hN : cfg0.N = 100 := N_0
  refine ⟨⟨(i 0).val / 5000, by omega⟩, flush0_6 _, ?_⟩
  obtain ⟨-, -, -, -, -, -, -, -, -, -, -, -, e0, e1⟩ := idx_facts ⟨(i 0).val / 5000, by omega⟩
  rw [mem_blk]
  intro a
  match a with
  | ⟨0, _⟩ =>
    show win0_6.index ⟨(i 0).val / 5000, _⟩ (0 : Fin 2) * 5000 ≤ (i 0).val ∧ (i 0).val < win0_6.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, _⟩ (1 : Fin 2) * 128 ≤ (i 1).val ∧ (i 1).val < win0_6.index ⟨(i 0).val / 5000, _⟩ (1 : Fin 2) * 128 + 128
    rw [e1]; omega

/-- After the region the output array is the whole message array. -/
theorem final (c : Dev nD) : (dats m 0 c).arrAt 6 cfg0.N = kmsg m c :=
  (dats m 0 c).arrAt_eq_of_cover 6 (kmsg m c) (fun t _ => flushed_eq m c t) (cover)

end Cert.KernelIdeal.KernelBlocks

end
-- ==== Proof.KernelRun.lean ====
/-
  The kernel program's run with its result named.

  After the region the program sums the message array into the destination nodes (a scatter-add into zeros, indexed
  by the destination column). The region leaves the whole message array in its output (`KernelBlocks.final`) and no
  line after it touches the arguments, so the result is that scatter-add of `MsgSpec.msg`.
-/
import proofs.«169036_j2645699854683_1_alg».proof.Proof.KernelBlocks
import Idealize.ShloMosaic.Lib.StableHlo.Run

noncomputable section

namespace Cert.KernelIdeal.KernelRun

open Cert.KernelIdeal Cert.KernelIdeal.Gen Idealize.ShloMosaic Idealize.ShloMosaic.TcCoe Idealize.SL.Sem
open Idealize.ShloMosaic.StableHlo Idealize.ShloMosaic.ValueIdx Cert.MsgSpec
open Cert.KernelIdeal.KernelHost Cert.KernelIdeal.KernelBlocks

variable (m : (ℓ : Loc nD τ sig) → Buf (Elt Ideal) ℓ) (ρ : Dev nD → PrngReg)

/-- The sum of an array of per-edge messages into their destination nodes. -/
def scatterMsgs (dst : (⟨S500000, .i32⟩ : BufTy).Contents (Elt Ideal)) (msgs : (⟨S500000x128, .f32⟩ : BufTy).Contents (Elt Ideal)) :
    (⟨S100000x128, .f32⟩ : BufTy).Contents (Elt Ideal) :=
  Host.scatterAdd scatter_S100000x128_S500000x1_S500000x128_1_0_0_1
    (broadcastInDim S100000x128 ![] bcast_S_S100000x128 (constant (F := Ideal) S_ .f32 0x00000000#32))
    (broadcastInDim S500000x1 ![0] bcast_S500000_S500000x1_0 dst) msgs

/-- The kernel program's result. -/
def kres (c : Dev nD) : (⟨S100000x128, .f32⟩ : BufTy).Contents (Elt Ideal) :=
  scatterMsgs (argDst m c) (kmsg m c)

/-- What the lines after the region leave in the result buffer. -/
theorem tail_eq (c : Dev nD) : Pipeline.afterTail₀ cfgs (dats m) 0 (V0 m) [hostOps1] c main_v47 = kres m c := by
  unfold Pipeline.afterTail₀
  show StableHlo.after hostOps1 _ (Proc.devRef .tc main_v47) = _
  after_results
  have h6 : Pipeline.withArrays (cfgs 0).spec c (V0 m c) (fun w => (dats m 0 c).arrAt w (cfgs 0).N) (Proc.devRef .tc main_v44) = kmsg m c :=
    (Pipeline.withArrays_arr spec0 launch0.win.arr_inj c _ _ 6).trans (final m c)
  have h4 : Pipeline.withArrays (cfgs 0).spec c (V0 m c) (fun w => (dats m 0 c).arrAt w (cfgs 0).N) (Proc.devRef .tc main_arg4) = argDst m c :=
    (Pipeline.withArrays_of_ne _ c (V0 m c) _ main_arg4 (by exact (by decide : ∀ w, Pipeline.arrRef spec0 w ≠ main_arg4))).trans (V_main_arg4 m c)
  rw [h6, h4]
  rfl

/-- Every weakly fair execution of the kernel program terminates with its result at `kres` and its arguments unchanged. -/
theorem run : θ_run defs (onTc (τ := τ) (main (F := Ideal))) ⟨m, fun _ => 0, ρ⟩ (fun r => ∀ c : Dev nD,
      r.2.mem ((c.tc : Thread nD τ).loc main_v47) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v47 (Pipeline.mem_restRefs_of main_v47 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelRun

end
-- ==== Proof.lean ====
/-
  Message passing over a graph: for every edge, a linear map of the concatenated destination and source features plus
  a bias, scaled by the product of the two endpoints' degree norms, summed into the destination nodes.

  Both programs compute the degree norms, gather the endpoint rows and scatter-add the messages with the same host
  operations; they differ only in how a message is formed. The reference contracts the 256 columns of the weight
  matrix against the concatenated row in one sum and multiplies by the scale on the left; the kernel contracts the
  destination half and the source half separately (one block product each, on blocks of 5000 edges), adds them and the
  bias, and multiplies by the scale on the right. A sum over 256 columns is the sum over its two halves, and a
  product commutes: both hold on the extended reals without any finiteness assumption, so the precondition is never
  opened. Narrowing the operands to bf16 is the identity on ideal values.

  The modules: `MsgSpec` (the message as one function, and the sum over two halves), `RefMsg` (the reference's message
  stage is that function), `KernelMsg` (so is what the kernel body stores, on a block), `KernelHost` and `KernelReads`
  (what the region's windows stage, in terms of the arguments), `KernelBlocks` (the blocks tile the message array),
  `KernelRun` (the kernel program's run with its result named).
-/
import proofs.«169036_j2645699854683_1_alg».proof.Defs
import proofs.«169036_j2645699854683_1_alg».proof.Proof.Gen.Kernel
import proofs.«169036_j2645699854683_1_alg».proof.Proof.Gen.Kernel.Skeleton
import proofs.«169036_j2645699854683_1_alg».proof.Proof.Gen.Kernel.Launch
import proofs.«169036_j2645699854683_1_alg».proof.Proof.Gen.Kernel.Points
import proofs.«169036_j2645699854683_1_alg».proof.Proof.Gen.Kernel.Frame
import proofs.«169036_j2645699854683_1_alg».proof.Proof.Gen.KernelIdeal
import proofs.«169036_j2645699854683_1_alg».proof.Proof.Gen.KernelIdeal.Skeleton
import proofs.«169036_j2645699854683_1_alg».proof.Proof.Gen.KernelIdeal.Launch
import proofs.«169036_j2645699854683_1_alg».proof.Proof.Gen.KernelIdeal.Points
import proofs.«169036_j2645699854683_1_alg».proof.Proof.Gen.KernelIdeal.Frame
import proofs.«169036_j2645699854683_1_alg».proof.Proof.Gen.ReferenceIdeal
import proofs.«169036_j2645699854683_1_alg».proof.Proof.Gen.ReferenceIdeal.Run
import proofs.«169036_j2645699854683_1_alg».proof.Proof.Gen.ReferenceIdeal.Read
import proofs.«169036_j2645699854683_1_alg».proof.Proof.Gen.Pre_finite_inputs
import proofs.«169036_j2645699854683_1_alg».proof.Proof.RefMsg
import proofs.«169036_j2645699854683_1_alg».proof.Proof.KernelRun
import Idealize.ShloMosaic.Adequacy
import Idealize.ShloMosaic.Init

noncomputable section

namespace Cert.Proof

open Idealize.ShloMosaic Idealize.ShloMosaic.TcCoe Idealize.SL.Sem
open Cert.MsgSpec Cert.KernelIdeal.KernelHost Cert.KernelIdeal.KernelBlocks Cert.KernelIdeal.KernelRun

/-- The reference's result on the kernel program's arguments is the kernel program's result: the same scatter-add of
    the same message array. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v48 (F := Ideal) (argX m c) (argW m c) (argB m c) (argSrc m c) (argDst m c)
      = kres m c := by
  unfold Cert.ReferenceIdeal.Read.val_main_v48 kres kmsg scatterMsgs
  rw [Cert.ReferenceIdeal.RefMsg.ref_msg, V_hdst, V_hsrc]
  simp only [Cert.ReferenceIdeal.Read.val_main_v46, Cert.ReferenceIdeal.Read.val_main_v47, Cert.ReferenceIdeal.Read.val_main_cst_10]
  rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten, so there is nothing to preserve. -/
theorem preserves : Cert.preserves_Kernel_KernelIdeal := trivial

/-- From memories agreeing on the arguments both programs end with the messages summed into the destination nodes. -/
theorem algebraic : Cert.algebraic_KernelIdeal_ReferenceIdeal := by
  intro m ρ m' ρ' _ hagree
  refine ⟨fun c => kres m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v48_eq]
  exact result_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
